-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1000000x3 : Shape := ⟨2, ![1000000, 3]⟩
abbrev S120x64 : Shape := ⟨2, ![120, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S120x64 : S_.BroadcastsInDim S120x64 (![] : Fin 0 → Fin S120x64.rank)
  reducesTo_S120x64_S_d0_1 : S120x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_v28 : IVec S_ 1) (main_v33 : IVec S1000000 1) : IVec S_ 1 :=
  let main_c_12 : IVec S_ 1 := constantI S_ 1 1#1
  let main_v34 : IVec S_ 1 := (fun x v => Host.reduce IntOp.andi x v reducesTo_S1000000_S_d0 h_S_) main_v33 main_c_12
  let main_v35 : IVec S_ 1 := andi main_v28 main_v34
  main_v35

def fn_part1 {F : FTy → Type} [FloatOps F] (main_arg0 : IVec S1000000 32) (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg6
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S1000000 32 := broadcastInDim S1000000 ![] bcast_S_S1000000 main_c_10
  let main_v30 : IVec S1000000 1 := cmpi .sge main_arg0 main_v29
  let main_c_11 : IVec S_ 32 := constantI S_ 32 120#32
  let main_v31 : IVec S1000000 32 := broadcastInDim S1000000 ![] bcast_S_S1000000 main_c_11
  let main_v32 : IVec S1000000 1 := cmpi .slt main_arg0 main_v31
  let main_v33 : IVec S1000000 1 := andi main_v30 main_v32
  fn_part2 (F := F) main_v28 main_v33

def fn {F : FTy → Type} [FloatOps F] (main_arg0 : IVec S1000000 32) (main_arg1 : FVec F S1000000x3 .f32) (main_arg2 : IVec S1000000 32) (main_arg3 : FVec F S120x64 .f32) (main_arg4 : FVec F S64x64 .f32) (main_arg5 : FVec F S64 .f32) (main_arg6 : FVec F S64x1 .f32) (main_arg7 : FVec F S1 .f32) : IVec S_ 1 :=
  let main_v0 : FVec F S1000000x3 .f32 := Host.absf main_arg1
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S120x64 .f32 := Host.absf main_arg3
  let main_cst_0 : FVec F S_ .f32 := constant S_ .f32 0x7F800000#32
  let main_v5 : FVec F S120x64 .f32 := broadcastInDim S120x64 ![] bcast_S_S120x64 main_cst_0
  let main_v6 : IVec S120x64 1 := cmpf .olt main_v4 main_v5
  let main_c_1 : IVec S_ 1 := constantI S_ 1 1#1
  let main_v7 : IVec S_ 1 := (fun x v => Host.reduce IntOp.andi x v reducesTo_S120x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg6 main_arg7 main_v13 main_v16
-- ==== Kernel.lean ====
abbrev S1000000 : Shape := ⟨1, ![1000000]⟩
abbrev S1000000x3 : Shape := ⟨2, ![1000000, 3]⟩
abbrev S120x64 : Shape := ⟨2, ![120, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S_ : Shape := ⟨0, ![]⟩
abbrev S120x1 : Shape := ⟨2, ![120, 1]⟩
abbrev S1x1 : Shape := ⟨2, ![1, 1]⟩
abbrev S120 : Shape := ⟨1, ![120]⟩
abbrev S128 : Shape := ⟨1, ![128]⟩
abbrev S128x1 : Shape := ⟨2, ![128, 1]⟩
abbrev S1015808 : Shape := ⟨1, ![1015808]⟩
abbrev S1x1015808 : Shape := ⟨2, ![1, 1015808]⟩
abbrev S1x16384 : Shape := ⟨2, ![1, 16384]⟩
abbrev S128x16384 : Shape := ⟨2, ![128, 16384]⟩
abbrev S16384 : Shape := ⟨1, ![16384]⟩
abbrev S4096 : Shape := ⟨1, ![4096]⟩
abbrev S1000000x1 : Shape := ⟨2, ![1000000, 1]⟩

abbrev nBuf : Space → Nat
  | .hbm => 51
  | .vmem => 5
  | .smem => 0
  | _ => 0

abbrev bufTy : (tb : Table) → Fin (tcTables nBuf tb) → BufTy
  | .hbm, ⟨0, _⟩ => ⟨S1000000, .i32⟩
  | .hbm, ⟨1, _⟩ => ⟨S1000000x3, .f32⟩
  | .hbm, ⟨2, _⟩ => ⟨S1000000, .i32⟩
  | .hbm, ⟨3, _⟩ => ⟨S120x64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S120x64, .f32⟩
  | .hbm, ⟨9, _⟩ => ⟨S1x64, .f32⟩
  | .hbm, ⟨10, _⟩ => ⟨S120x64, .f32⟩
  | .hbm, ⟨11, _⟩ => ⟨S120x64, .f32⟩
  | .hbm, ⟨12, _⟩ => ⟨S120x64, .f32⟩
  | .hbm, ⟨13, _⟩ => ⟨S120x64, .f32⟩
  | .hbm, ⟨14, _⟩ => ⟨S_, .f32⟩
  | .hbm, ⟨15, _⟩ => ⟨S120x64, .f32⟩
  | .hbm, ⟨16, _⟩ => ⟨S120x64, .f32⟩
  | .hbm, ⟨17, _⟩ => ⟨S_, .f32⟩
  | .hbm, ⟨18, _⟩ => ⟨S120x64, .f32⟩
  | .hbm, ⟨19, _⟩ => ⟨S120x64, .f32⟩
  | .hbm, ⟨20, _⟩ => ⟨S120x64, .f32⟩
  | .hbm, ⟨21, _⟩ => ⟨S120x1, .f32⟩
  | .hbm, ⟨22, _⟩ => ⟨S1x1, .f32⟩
  | .hbm, ⟨23, _⟩ => ⟨S120x1, .f32⟩
  | .hbm, ⟨24, _⟩ => ⟨S120x1, .f32⟩
  | .hbm, ⟨25, _⟩ => ⟨S120, .f32⟩
  | .hbm, ⟨26, _⟩ => ⟨S_, .f32⟩
  | .hbm, ⟨27, _⟩ => ⟨S128, .f32⟩
  | .hbm, ⟨28, _⟩ => ⟨S_, .i32⟩
  | .hbm, ⟨29, _⟩ => ⟨S1, .i32⟩
  | .hbm, ⟨30, _⟩ => ⟨S128, .f32⟩
  | .hbm, ⟨31, _⟩ => ⟨S128x1, .f32⟩
  | .hbm, ⟨32, _⟩ => ⟨S_, .i32⟩
  | .hbm, ⟨33, _⟩ => ⟨S_, .i32⟩
  | .hbm, ⟨34, _⟩ => ⟨S1015808, .i32⟩
  | .hbm, ⟨35, _⟩ => ⟨S1x1015808, .i32⟩
  | .hbm, ⟨36, _⟩ => ⟨S1x1015808, .f32⟩
  | .hbm, ⟨37, _⟩ => ⟨S1015808, .f32⟩
  | .hbm, ⟨38, _⟩ => ⟨S1000000, .f32⟩
  | .hbm, ⟨39, _⟩ => ⟨S_, .f32⟩
  | .hbm, ⟨40, _⟩ => ⟨S4096, .f32⟩
  | .hbm, ⟨41, _⟩ => ⟨S1000000x1, .i32⟩
  | .hbm, ⟨42, _⟩ => ⟨S4096, .f32⟩
  | .hbm, ⟨43, _⟩ => ⟨S_, .f32⟩
  | .hbm, ⟨44, _⟩ => ⟨S1000000, .f32⟩
  | .hbm, ⟨45, _⟩ => ⟨S_, .f32⟩
  | .hbm, ⟨46, _⟩ => ⟨S4096, .f32⟩
  | .hbm, ⟨47, _⟩ => ⟨S1000000x1, .i32⟩
  | .hbm, ⟨48, _⟩ => ⟨S4096, .f32⟩
  | .hbm, ⟨49, _⟩ => ⟨S_, .f32⟩
  | .hbm, ⟨50, _⟩ => ⟨S1000000x3, .f32⟩
  | .local _ .vmem, ⟨0, _⟩ => ⟨S1x16384, .i32⟩
  | .local _ .vmem, ⟨1, _⟩ => ⟨S1x16384, .i32⟩
  | .local _ .vmem, ⟨2, _⟩ => ⟨S128x1, .f32⟩
  | .local _ .vmem, ⟨3, _⟩ => ⟨S1x16384, .f32⟩
  | .local _ .vmem, ⟨4, _⟩ => ⟨S1x16384, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_0 : Ref sig .tc := ⟨.hbm, 32, rfl⟩
abbrev main_call1_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64_S1x64_1 : S64.BroadcastsInDim S1x64 (![1] : Fin 1 → Fin S1x64.rank)
  bcast_S1x64_S120x64_0_1 : S1x64.BroadcastsInDim S120x64 (![0, 1] : Fin 2 → Fin S120x64.rank)
  bcast_S_S120x64 : S_.BroadcastsInDim S120x64 (![] : Fin 0 → Fin S120x64.rank)
  bcast_S1_S1x1_1 : S1.BroadcastsInDim S1x1 (![1] : Fin 1 → Fin S1x1.rank)
  bcast_S1x1_S120x1_0_1 : S1x1.BroadcastsInDim S120x1 (![0, 1] : Fin 2 → Fin S120x1.rank)
  shapeCasts_S120x1_S120 : S120x1.ShapeCasts S120
  bcast_S_S128 : S_.BroadcastsInDim S128 (![] : Fin 0 → Fin S128.rank)
  bcast_S_S1 : S_.BroadcastsInDim S1 (![] : Fin 0 → Fin S1.rank)
  shapeCasts_S128_S128x1 : S128.ShapeCasts S128x1
  pads_S1000000_S1015808_0158080 : S1000000.Pads (![0] : Fin 1 → Nat) ![15808] ![0] S1015808
  h_S_ : 0 < S_.numel
  shapeCasts_S1015808_S1x1015808 : S1015808.ShapeCasts S1x1015808
  iota_S128x16384_d0_w32 : S128x16384.Iotas .tc 32 [0]
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S1x16384_S128x16384 : S1x16384.Broadcasts S128x16384
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  reduces_S128x16384_S16384 : S128x16384.Reduces [0] S16384
  shapeCasts_S16384_S1x16384 : S16384.ShapeCasts S1x16384
  shapeCasts_S1x1015808_S1015808 : S1x1015808.ShapeCasts S1015808
  slices_S1015808_S1000000_0 : S1015808.Slices ![0] S1000000
  bcast_S_S4096 : S_.BroadcastsInDim S4096 (![] : Fin 0 → Fin S4096.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S1000000x3 : S_.BroadcastsInDim S1000000x3 (![] : Fin 0 → Fin S1000000x3.rank)
  dot_S120x64_S64x64_S120x64_1_0_0_1_n_n_wf : DotDims.WF S120x64 S64x64 S120x64 [1] [0] [0] [1] [] []
  dot_S120x64_S64x1_S120x1_1_0_0_1_n_n_wf : DotDims.WF S120x64 S64x1 S120x1 [1] [0] [0] [1] [] []
  scatter_S128_S1_S120_0_n_0_0_wf : ScatterDims.WF S128 S1 S120 [0] [] [0] 0
  scatter_S4096_S1000000x1_S1000000_n_0_0_1_wf : ScatterDims.WF S4096 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x1015808.size a
  hwx0_0 : ∀ i : grid0.Coords, EltTy.bits .i32 = 32 ∨ (Rect.block (s := S1x1015808) S1x16384.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x1015808.size a
  hwx0_2 : ∀ i : grid0.Coords, EltTy.bits .f32 = 32 ∨ (Rect.block (s := S1x1015808) S1x16384.size (cc0_transform_2 i) (hinb0_2 i)).WholeWords (EltTy.packing .f32)

variable [Facts₀]

def dot_S120x64_S64x64_S120x64_1_0_0_1_n_n : DotDims S120x64 S64x64 S120x64 where
  lhsContracting := [1]
  rhsContracting := [0]
  lhsNonContracting := [0]
  rhsNonContracting := [1]
  lhsBatch := []
  rhsBatch := []
  wf := dot_S120x64_S64x64_S120x64_1_0_0_1_n_n_wf
def dot_S120x64_S64x1_S120x1_1_0_0_1_n_n : DotDims S120x64 S64x1 S120x1 where
  lhsContracting := [1]
  rhsContracting := [0]
  lhsNonContracting := [0]
  rhsNonContracting := [1]
  lhsBatch := []
  rhsBatch := []
  wf := dot_S120x64_S64x1_S120x1_1_0_0_1_n_n_wf
def scatter_S128_S1_S120_0_n_0_0 : ScatterDims S128 S1 S120 where
  updateWindowDims := [0]
  insertedWindowDims := []
  scatterDimsToOperandDims := [0]
  indexVectorDim := 0
  wf := scatter_S128_S1_S120_0_n_0_0_wf
def scatter_S4096_S1000000x1_S1000000_n_0_0_1 : ScatterDims S4096 S1000000x1 S1000000 where
  updateWindowDims := []
  insertedWindowDims := [0]
  scatterDimsToOperandDims := [0]
  indexVectorDim := 1
  wf := scatter_S4096_S1000000x1_S1000000_n_0_0_1_wf

abbrev win0_0 : Pipeline.Window sig grid0 :=
  Pipeline.Window.ofSpec (Memref.whole main_v15) S1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000 : Shape := ⟨1, ![1000000]⟩
abbrev S1000000x3 : Shape := ⟨2, ![1000000, 3]⟩
abbrev S120x64 : Shape := ⟨2, ![120, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S1x1 : Shape := ⟨2, ![1, 1]⟩
abbrev S4096 : Shape := ⟨1, ![4096]⟩

abbrev nBuf : Space → Nat
  | .hbm => 50
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000x3, .f32⟩
  | .hbm, ⟨2, _⟩ => ⟨S1000000, .i32⟩
  | .hbm, ⟨3, _⟩ => ⟨S120x64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S1000000x64, .f32⟩
  | .hbm, ⟨18, _⟩ => ⟨S1x64, .f32⟩
  | .hbm, ⟨19, _⟩ => ⟨S1000000x64, .f32⟩
  | .hbm, ⟨20, _⟩ => ⟨S1000000x64, .f32⟩
  | .hbm, ⟨21, _⟩ => ⟨S1000000x64, .f32⟩
  | .hbm, ⟨22, _⟩ => ⟨S1000000x64, .f32⟩
  | .hbm, ⟨23, _⟩ => ⟨S_, .f32⟩
  | .hbm, ⟨24, _⟩ => ⟨S1000000x64, .f32⟩
  | .hbm, ⟨25, _⟩ => ⟨S1000000x64, .f32⟩
  | .hbm, ⟨26, _⟩ => ⟨S_, .f32⟩
  | .hbm, ⟨27, _⟩ => ⟨S1000000x64, .f32⟩
  | .hbm, ⟨28, _⟩ => ⟨S1000000x64, .f32⟩
  | .hbm, ⟨29, _⟩ => ⟨S1000000x64, .f32⟩
  | .hbm, ⟨30, _⟩ => ⟨S1000000x1, .f32⟩
  | .hbm, ⟨31, _⟩ => ⟨S1x1, .f32⟩
  | .hbm, ⟨32, _⟩ => ⟨S1000000x1, .f32⟩
  | .hbm, ⟨33, _⟩ => ⟨S1000000x1, .f32⟩
  | .hbm, ⟨34, _⟩ => ⟨S1000000, .f32⟩
  | .hbm, ⟨35, _⟩ => ⟨S_, .f32⟩
  | .hbm, ⟨36, _⟩ => ⟨S4096, .f32⟩
  | .hbm, ⟨37, _⟩ => ⟨S1000000x1, .i32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1000000x3, .f32⟩
  | .hbm, ⟨43, _⟩ => ⟨S1000000x3, .f32⟩
  | .hbm, ⟨44, _⟩ => ⟨S_, .f32⟩
  | .hbm, ⟨45, _⟩ => ⟨S1000000, .f32⟩
  | .hbm, ⟨46, _⟩ => ⟨S_, .f32⟩
  | .hbm, ⟨47, _⟩ => ⟨S4096, .f32⟩
  | .hbm, ⟨48, _⟩ => ⟨S1000000x1, .i32⟩
  | .hbm, ⟨49, _⟩ => ⟨S4096, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  bcast_S_S4096 : S_.BroadcastsInDim S4096 (![] : Fin 0 → Fin S4096.rank)
  reducesTo_S4096_S_d0 : S4096.ReducesTo [0] S_
  h_S_ : 0 < S_.numel
  bcast_S_S1000000x3 : S_.BroadcastsInDim S1000000x3 (![] : Fin 0 → Fin S1000000x3.rank)
  gather_S120x64_S1000000x1_S1000000x64_1_0_n_n_0_1_164_wf : GatherDims.WF S120x64 S1000000x1 S1000000x64 [1] [0] [] [0] [] 1 ![1, 64]
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []
  scatter_S4096_S1000000x1_S1000000_n_0_0_1_wf : ScatterDims.WF S4096 S1000000x1 S1000000 [] [0] [0] 1

variable [Facts₀]

def gather_S120x64_S1000000x1_S1000000x64_1_0_n_n_0_1_164 : GatherDims S120x64 S1000000x1 S1000000x64 where
  offsetDims := [1]
  collapsedSliceDims := [0]
  operandBatchingDims := []
  startIndicesBatchingDims := []
  startIndexMap := [0]
  indexVectorDim := 1
  sliceSizes := ![1, 64]
  wf := gather_S120x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def scatter_S4096_S1000000x1_S1000000_n_0_0_1 : ScatterDims S4096 S1000000x1 S1000000 where
  updateWindowDims := []
  insertedWindowDims := [0]
  scatterDimsToOperandDims := [0]
  indexVectorDim := 1
  wf := scatter_S4096_S1000000x1_S1000000_n_0_0_1_wf

class Facts : Prop extends Facts₀ where

variable [Facts]
-- ==== Proof.Spec.lean ====
/-
  The mathematics both programs compute, stated once over the extended reals, with no program in sight.

  An atom's energy depends only on its element id `z`: it is the small network applied to row `z` of the embedding
  table, `E(r) = (∑ₖ silu((∑ₖ' emb[r,k'] · W1[k',k]) + b1[k]) · W2[k,0]) + b2[0]`, with `silu x = x · (1 / (1 + exp (−x)))`.
  One program applies the network to the gathered row of every atom; the other tabulates `E` over the 120 rows once
  and selects, per atom, the table entry whose row number equals `z` by comparing `z` with every row number and
  summing the selected column: a sum with exactly one non-zero term, which needs no law of the extended reals beyond
  `x + 0 = x`.
-/
import Idealize.ShloMosaic.PureOps
import Idealize.ShloMosaic.PureOps.Ideal.Laws
import Idealize.ShloMosaic.Lib.ValueIdx

noncomputable section

namespace Cert.AtomEnergy

open Idealize.ShloMosaic Idealize.ShloMosaic.ValueIdx

/-- `silu` as both programs spell it, operation by operation: `x · (1 / (1 + exp (−x)))`. The literal `1` stays the
    printed word on both sides and is never evaluated. -/
def silu (x : Ideal .f32) : Ideal .f32 :=
  FloatOps.mulf x (FloatOps.hostDivf (FloatOps.ofBits .f32 0x3F800000#32)
    (FloatOps.addf (FloatOps.ofBits .f32 0x3F800000#32) (FloatOps.hostUnary .exp (FloatOps.hostNegf x))))

/-- Hidden unit `k` of the network on an embedding row `e`. -/
def hidden (e : Fin 64 → Ideal .f32) (W1 : FVec Ideal ⟨2, ![64, 64]⟩ .f32) (b1 : FVec Ideal ⟨1, ![64]⟩ .f32) (k : Fin 64) : Ideal .f32 :=
  silu ((∑ k' : Fin 64, e k' * W1 (ix2 k' k)) + b1 (ix1 k))

/-- The network's output on an embedding row `e`. -/
def energyOfRow (e : Fin 64 → Ideal .f32) (W1 : FVec Ideal ⟨2, ![64, 64]⟩ .f32) (b1 : FVec Ideal ⟨1, ![64]⟩ .f32)
    (W2 : FVec Ideal ⟨2, ![64, 1]⟩ .f32) (b2 : FVec Ideal ⟨1, ![1]⟩ .f32) : Ideal .f32 :=
  (∑ k : Fin 64, hidden e W1 b1 k * W2 (ix2 k (0 : Fin 1))) + b2 (ix1 (0 : Fin 1))

/-- `E(r)`: the energy of an atom whose element id is row `r` of the embedding table. -/
def rowEnergy (emb : FVec Ideal ⟨2, ![120, 64]⟩ .f32) (W1 : FVec Ideal ⟨2, ![64, 64]⟩ .f32) (b1 : FVec Ideal ⟨1, ![64]⟩ .f32)
    (W2 : FVec Ideal ⟨2, ![64, 1]⟩ .f32) (b2 : FVec Ideal ⟨1, ![1]⟩ .f32) (r : Fin 120) : Ideal .f32 :=
  energyOfRow (fun k => emb (ix2 r k)) W1 b1 W2 b2

/-- Two row numbers below 128 are equal as 32-bit words only if they are equal. -/
theorem ofNat_inj_of_lt {c r : Nat} (hc : c < 128) (hr : r < 128) (h : BitVec.ofNat 32 c = BitVec.ofNat 32 r) : c = r := by
  have := congrArg BitVec.toNat h
  simp only [BitVec.toNat_ofNat] at this
  omega

/-- THE LOOKUP. Comparing the id `z` with every row number `0 … 127`, selecting the table's entry where they agree and
    `0` elsewhere, and summing over the rows, gives the table's entry at row `z`: every other term is `0`. -/
theorem lookup_sum (tb : Fin 128 → EReal) (z : BitVec 32) (r : Fin 128) (hz : z = BitVec.ofNat 32 r.val) :
    ∑ c : Fin 128, Scalar.select (IntOp.cmpi .eq (BitVec.ofNat 32 c.val) z) (tb c) (0 : EReal) = tb r := by
  subst hz
  rw [Finset.sum_eq_single r]
  · have h1 : IntOp.cmpi .eq (BitVec.ofNat 32 r.val) (BitVec.ofNat 32 r.val) = 1#1 := by
      simp [IntOp.cmpi]
    rw [h1, select_one]
  · intro c _ hc
    have h0 : IntOp.cmpi .eq (BitVec.ofNat 32 c.val) (BitVec.ofNat 32 r.val) = 0#1 := by
      have hne : BitVec.ofNat 32 c.val ≠ BitVec.ofNat 32 r.val := fun h =>
        hc (Fin.ext (ofNat_inj_of_lt c.isLt r.isLt h))
      have hb : (BitVec.ofNat 32 c.val == BitVec.ofNat 32 r.val) = false := beq_eq_false_iff_ne.mpr hne
      unfold IntOp.cmpi
      simp only [hb]
      rfl
    rw [h0, select_zero]
  · intro h; exact absurd (Finset.mem_univ r) h

end Cert.AtomEnergy

end
-- ==== Proof.KernelBody.lean ====
/-
  What one grid step of the kernel computes, as arithmetic.

  The step holds a row of 16384 element ids and the 128-entry energy table as a column. It builds the 128 × 16384
  array whose entry (c, j) is the table's entry c where the row number c equals id j and zero elsewhere, and sums it
  down the rows. So output entry j is the sum over the 128 row numbers of "table[c] if c = id[j], else 0".
-/
import proofs.«408024_j15994458210311_2_alg».proof.Proof.Gen.KernelIdeal.Skeleton
import proofs.«408024_j15994458210311_2_alg».proof.Proof.Spec
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx
open Cert.KernelIdeal Cert.KernelIdeal.Gen

variable [Cert.KernelIdeal.Facts]

/-- Summing down the rows: the source index over output column `j` with row coordinate `c` is `(c, j)`. -/
theorem lift_rows (h : (⟨2, ![128, 16384]⟩ : Shape).Reduces [(0 : Fin 2)] ⟨1, ![16384]⟩) (j : Fin 16384)
    (c : Fin ((⟨2, ![128, 16384]⟩ : Shape).size 0)) :
    h.lift (ix1 j) c = ix2 (n0 := 128) (n1 := 16384) c j := by
  funext a
  refine Fin.ext ?_
  show Shape.Reduces.liftVal h (ix1 j) c.val a = _
  unfold Shape.Reduces.liftVal
  match a with
  | ⟨0, _⟩ => simp
  | ⟨1, _⟩ => simp

/-- Output entry `j` of a grid step: the sum over the 128 row numbers `c` of the table's entry `c` where `c` equals
    the step's id `j`, and zero elsewhere. -/
theorem pay_apply (ids : Vec Ideal S1x16384 .i32) (tbl : Vec Ideal S128x1 .f32) (j : Fin 16384) :
    k0_pay1 (F := Ideal) ids tbl (ix2 (0 : Fin 1) j)
      = ∑ c : Fin 128, Scalar.select (IntOp.cmpi .eq (BitVec.ofNat 32 c.val) (ids (ix2 (0 : Fin 1) j))) (tbl (ix2 c (0 : Fin 1))) (0 : EReal) := by
  unfold k0_pay1
  dsimp only
  rw [shapeCast_apply _ _ (ix2 (0 : Fin 1) j) (ix1 j) (by rw [Shape.rowMajor_val_one, Shape.rowMajor_val_two]; simp)]
  refine (Ideal.multiReduction_add_single _ _ _ _ _ (ix1 j)).trans ?_
  refine Finset.sum_congr rfl fun c _ => ?_
  rw [lift_rows _ j c, select_apply]
  rw [shapeCast_self, shapeCast_self, shapeCast_self]
  -- the ids row broadcast down the rows reads (0, j); the table column broadcast along the row reads (c, 0)
  have hid : broadcastTo S128x16384 ids broadcasts_S1x16384_S128x16384 (ix2 c j) = ids (ix2 (0 : Fin 1) j) :=
    broadcastTo_apply ids _ _ _ (fun a => by match a with | ⟨0, _⟩ => simp | ⟨1, _⟩ => simp)
  have htb : broadcastTo S128x16384 tbl broadcasts_S128x1_S128x16384 (ix2 c j) = tbl (ix2 c (0 : Fin 1)) :=
    broadcastTo_apply tbl _ _ _ (fun a => by match a with | ⟨0, _⟩ => simp | ⟨1, _⟩ => simp)
  -- the row-number array reads its row coordinate
  have hio : iota Kind.tc S128x16384 32 [0] iota_S128x16384_d0_w32 (ix2 c j) = BitVec.ofNat 32 c.val :=
    iota_single_apply _ _ _ _ _ _
  show Scalar.select (IntOp.cmpi .eq (iota Kind.tc S128x16384 32 [0] iota_S128x16384_d0_w32 (ix2 c j))
      (broadcastTo S128x16384 ids broadcasts_S1x16384_S128x16384 (ix2 c j)))
      (broadcastTo S128x16384 tbl broadcasts_S128x1_S128x16384 (ix2 c j))
      (Ideal.ofBits .f32 0x00000000#32) = _
  rw [hid, htb, hio, Ideal.ofBits_zero_f32]

end Cert.KernelIdeal.Body

end
-- ==== Proof.KernelArray.lean ====
/-
  What the kernel's call leaves in its output array.

  The call walks 62 grid steps; step `t` reads ids `16384·t … 16384·t + 16383` of the padded id row and the whole
  128-entry table column, and writes the same range of the output row. Each output entry is the selected sum of
  its own id against the table, so the whole output row is ONE function of the padded ids and the table, entry by
  entry; the 62 ranges tile the row (62 · 16384 = 1015808), so that function is the array.
-/
import proofs.«408024_j15994458210311_2_alg».proof.Proof.Gen.KernelIdeal.Frame
import proofs.«408024_j15994458210311_2_alg».proof.Proof.KernelBody
import Idealize.ShloMosaic.Lib.Pipeline.Value
import Idealize.ShloMosaic.Lib.ValueIdx

set_option maxRecDepth 16384

noncomputable section

namespace Cert.KernelIdeal.OutArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The output row as one function of the padded id row and the table column: entry `y` is the sum over the 128
    row numbers `c` of the table's entry `c` where `c` equals id `y`, zero elsewhere. -/
def selected (ids : (⟨2, ![1, 1015808]⟩ : Shape).Idx → BitVec 32) (tbl : (⟨2, ![128, 1]⟩ : Shape).Idx → EReal) :
    (⟨2, ![1, 1015808]⟩ : Shape).Idx → EReal :=
  fun y => ∑ c : Fin 128, Scalar.select (IntOp.cmpi .eq (BitVec.ofNat 32 c.val) (ids y)) (tbl (ix2 c (0 : Fin 1))) (0 : EReal)

/-- The three block index maps over the grid: the id row and the output row move together, block `t` at step `t`;
    the table column is always its one block. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- A grid step's output entry at any index of its 1 × 16384 block (the leading coordinate can only be 0). -/
theorem pay_at (ids : Vec Ideal S1x16384 .i32) (tbl : Vec Ideal S128x1 .f32) (y : S1x16384.Idx) :
    k0_pay1 (F := Ideal) ids tbl y
      = ∑ c : Fin 128, Scalar.select (IntOp.cmpi .eq (BitVec.ofNat 32 c.val) (ids y)) (tbl (ix2 c (0 : Fin 1))) (0 : EReal) := by
  obtain ⟨p, q, rfl⟩ : ∃ (p : Fin 1) (q : Fin 16384), y = ix2 p q := ⟨y 0, y 1, eq_ix2 y⟩
  obtain rfl : p = 0 := Subsingleton.elim _ _
  exact Body.pay_apply ids tbl q

/-- Equal ids and equal table entries give equal selected terms. -/
theorem select_congr (n : BitVec 32) {a a' : BitVec 32} {b b' : EReal} (ha : a = a') (hb : b = b') :
    Scalar.select (IntOp.cmpi .eq n a) b (0 : EReal) = Scalar.select (IntOp.cmpi .eq n a') b' (0 : EReal) := by
  subst ha hb; rfl

/-- One array read at two indices with equal coordinates. -/
theorem read_congr {S : Shape} {α : Type} (X : S.Idx → α) {i j : S.Idx} (h : ∀ a, (i a).val = (j a).val) : X i = X j :=
  congrArg X (funext fun a => Fin.ext (h a))

/-- The id block at step `t` is the id row read where the output block sits: the two rows move together. -/
theorem ids_block_at (c : Dev nD) (t : Fin cfg0.N) (y : S1x16384.Idx) :
    (iblk m c 0 t : Vec Ideal S1x16384 .i32) y
      = (V m c (Pipeline.arrRef spec0 0) : S1x1015808.Idx → BitVec 32) (((cfg0.win 2).blk t).view.emb y) := by
  obtain ⟨e0, e1, e2, e3, e4, e5⟩ := idx_facts t
  unfold iblk
  rw [View.read_apply, cast_eq]
  refine read_congr (S := S1x1015808) (V m c (Pipeline.arrRef spec0 0)) (fun a => ?_)
  match a with
  | ⟨0, _⟩ => show win0_0.index t (0 : Fin 2) * 1 + 1 * (y 0).val = win0_2.index t (0 : Fin 2) * 1 + 1 * (y 0).val; omega
  | ⟨1, _⟩ => show win0_0.index t (1 : Fin 2) * 16384 + 1 * (y 1).val = win0_2.index t (1 : Fin 2) * 16384 + 1 * (y 1).val; omega

/-- The table block is the whole table column at every step. -/
theorem table_block_at (c : Dev nD) (t : Fin cfg0.N) (r : Fin 128) :
    (iblk m c 1 t : Vec Ideal S128x1 .f32) (ix2 r (0 : Fin 1))
      = (V m c (Pipeline.arrRef spec0 1) : S128x1.Idx → EReal) (ix2 r (0 : Fin 1)) := by
  obtain ⟨e0, e1, e2, e3, e4, e5⟩ := idx_facts t
  unfold iblk
  rw [View.read_apply, cast_eq]
  refine read_congr (S := S128x1) (V m c (Pipeline.arrRef spec0 1)) (fun a => ?_)
  match a with
  | ⟨0, _⟩ => show win0_1.index t (0 : Fin 2) * 128 + 1 * r.val = r.val; omega
  | ⟨1, _⟩ => show win0_1.index t (1 : Fin 2) * 1 + 1 * 0 = 0; omega

/-- What step `t` writes back is block `t` of the selected sum of the arrays the call finds. -/
theorem flushed_eq (c : Dev nD) (t : Fin cfg0.N) :
    (dats m 0 c).flushed 2 t = ((cfg0.win 2).blk t).view.read (Elt Ideal)
      (selected (V m c (Pipeline.arrRef spec0 0)) (V m c (Pipeline.arrRef spec0 1))) := by
  show (cfg0.win 2).cut (grid0.coords t) ((dats m 0 c).after 2 t) = _
  rw [after0_2]
  unfold out0_2
  rw [View.canon_unit_zero hz]
  simp only [View.ld_unit_zero (S := S1x16384) hz, View.ld_unit_zero (S := S128x1) hz]
  funext y
  rw [View.read_apply, cast_eq]
  refine (pay_at (iblk m c 0 t) (iblk m c 1 t) y).trans ?_
  unfold selected
  exact Finset.sum_congr rfl fun r _ => select_congr _ (ids_block_at m c t y) (table_block_at m c t r)

/-- An index of the output row is in step `t`'s block iff each coordinate lies in the block's range on its axis. -/
theorem mem_blk (t : Fin cfg0.N) (i : S1x1015808.Idx) :
    i ∈ ((cfg0.win 2).blk t).view.set ↔ ∀ a : Fin 2, win0_2.index t a * S1x16384.size a ≤ (i a).val
      ∧ (i a).val < win0_2.index t a * S1x16384.size a + S1x16384.size a := by
  show i ∈ ((View.whole main_v16).slice (win0_2.rect t)).set ↔ _
  rw [View.set_slice_whole, Rect.mem_set_unit]
  exact Iff.rfl

/-- The 62 blocks tile the output row: column `j` lies in the block of step `j / 16384`. -/
theorem cover (i : S1x1015808.Idx) :
    ∃ t : Fin cfg0.N, (cfg0.win 2).flush t = true ∧ i ∈ ((cfg0.win 2).blk t).view.set := by
  have hi0 : (i 0).val < 1 := (i 0).isLt
  have hi1 : (i 1).val < 1015808 := (i 1).isLt
  have hN : cfg0.N = 62 := N_0
  have ht : (i 1).val / 16384 < cfg0.N := by rw [hN]; omega
  obtain ⟨e0, e1, e2, e3, e4, e5⟩ := idx_facts ⟨(i 1).val / 16384, ht⟩
  refine ⟨⟨(i 1).val / 16384, ht⟩, flush0_2 _, ?_⟩
  rw [mem_blk]
  intro a
  match a with
  | ⟨0, _⟩ =>
    show win0_2.index ⟨(i 1).val / 16384, ht⟩ (0 : Fin 2) * 1 ≤ (i 0).val
      ∧ (i 0).val < win0_2.index ⟨(i 1).val / 16384, ht⟩ (0 : Fin 2) * 1 + 1
    omega
  | ⟨1, _⟩ =>
    show win0_2.index ⟨(i 1).val / 16384, ht⟩ (1 : Fin 2) * 16384 ≤ (i 1).val
      ∧ (i 1).val < win0_2.index ⟨(i 1).val / 16384, ht⟩ (1 : Fin 2) * 16384 + 16384
    have e5' : win0_2.index ⟨(i 1).val / 16384, ht⟩ (1 : Fin 2) = (i 1).val / 16384 := e5
    omega

/-- THE OUTPUT ROW after the call: the selected sum of the padded id row and the table column, entry by entry. -/
theorem final (c : Dev nD) :
    (dats m 0 c).arrAt 2 cfg0.N
      = (selected (V m c (Pipeline.arrRef spec0 0)) (V m c (Pipeline.arrRef spec0 1)) : S1x1015808.Idx → EReal) :=
  (dats m 0 c).arrAt_eq_of_cover 2 (selected (V m c (Pipeline.arrRef spec0 0)) (V m c (Pipeline.arrRef spec0 1)))
    (fun t _ => flushed_eq m c t) cover

end Cert.KernelIdeal.OutArray

end
-- ==== Proof.KernelTail.lean ====
/-
  What the host lines after the kernel's call compute, from whatever the call left.

  They flatten the 1 × 1015808 output row, keep its first 1000000 entries (the padding atoms are dropped), and
  scatter-add those into 4096 graph slots by the batch ids; scatter-add a row of ones the same way (the atom
  counts); and fill the forces with zeros. Stated over ANY contents of the buffers the lines read, so that nothing
  about the lines before the call is ever opened here.
-/
import proofs.«408024_j15994458210311_2_alg».proof.Proof.Gen.KernelIdeal.Frame
import Idealize.ShloMosaic.Lib.StableHlo.Run
import Idealize.ShloMosaic.PureOps.Ideal.Laws

noncomputable section

namespace Cert.KernelIdeal.Tail

open Idealize.ShloMosaic Idealize.ShloMosaic.TcCoe Idealize.ShloMosaic.StableHlo
open Idealize.SL Idealize.SL.Sem
open Cert.KernelIdeal Cert.KernelIdeal.Gen

/-- The graph energies: the kept atom energies scatter-added by batch id. -/
theorem energies (Vv : Valuation τ sig (Elt Ideal)) :
    (StableHlo.after (hostOps1 (F := Ideal)) Vv (Proc.devRef .tc main_v21) : S4096.Idx → EReal)
      = Host.scatterAdd scatter_S4096_S1000000x1_S1000000_n_0_0_1
          (broadcastInDim S4096 ![] bcast_S_S4096 (constant (F := Ideal) S_ .f32 0x00000000#32))
          (broadcastInDim S1000000x1 ![0] bcast_S1000000_S1000000x1_0 (Vv (Proc.devRef .tc main_arg2)))
          (extractStridedSlice S1000000 ![0]
            (shapeCast S1015808 (Vv (Proc.devRef .tc main_v16)) shapeCasts_S1x1015808_S1015808) slices_S1015808_S1000000_0) := by
  after_results <;> rfl

/-- The atom counts: a row of ones scatter-added by batch id. -/
theorem counts (Vv : Valuation τ sig (Elt Ideal)) :
    (StableHlo.after (hostOps1 (F := Ideal)) Vv (Proc.devRef .tc main_v25) : S4096.Idx → EReal)
      = Host.scatterAdd scatter_S4096_S1000000x1_S1000000_n_0_0_1
          (broadcastInDim S4096 ![] bcast_S_S4096 (constant (F := Ideal) S_ .f32 0x00000000#32))
          (broadcastInDim S1000000x1 ![0] bcast_S1000000_S1000000x1_0 (Vv (Proc.devRef .tc main_arg2)))
          (broadcastInDim S1000000 ![] bcast_S_S1000000 (constant (F := Ideal) S_ .f32 0x3F800000#32)) := by
  after_results <;> rfl

/-- The forces: zeros. -/
theorem forces (Vv : Valuation τ sig (Elt Ideal)) :
    (StableHlo.after (hostOps1 (F := Ideal)) Vv (Proc.devRef .tc main_v26) : S1000000x3.Idx → EReal)
      = broadcastInDim S1000000x3 ![] bcast_S_S1000000x3 (constant (F := Ideal) S_ .f32 0x00000000#32) := by
  after_results <;> rfl

end Cert.KernelIdeal.Tail

end
-- ==== Proof.KernelRun.lean ====
/-
  The kernel program's run, read: what each of its three results holds.

  After the call, every buffer holds what the host lines before the call left, except the output row, which holds
  the selected sum of the padded ids against the table. The lines after the call read only that row and the batch
  ids (an argument, unchanged), so: the graph energies are the scatter-add by batch id of the first 1000000 entries
  of the flattened output row; the atom counts are the scatter-add of ones; the forces are zeros.
-/
import proofs.«408024_j15994458210311_2_alg».proof.Proof.Gen.KernelIdeal.Frame
import proofs.«408024_j15994458210311_2_alg».proof.Proof.KernelArray
import proofs.«408024_j15994458210311_2_alg».proof.Proof.KernelTail

set_option maxRecDepth 16384

noncomputable section

namespace Cert.KernelIdeal.RunValue

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-- What the call leaves on core `c`: its arrays at what the grid steps wrote, every other buffer as the lines
    before the call left it. -/
def left (c : Dev nD) : Valuation τ sig (Elt Ideal) :=
  Pipeline.withArrays (cfgs 0).spec c (V0 m c) fun w => (dats m 0 c).arrAt w (cfgs 0).N

/-- The lines after the call run from what the call leaves. -/
theorem tail_eq (c : Dev nD) (b : Ref sig .tc) :
    Pipeline.afterTail₀ cfgs (dats m) 0 (V0 m) [hostOps1] c b
      = StableHlo.after (hostOps1 (F := Ideal)) (left m c) (Proc.devRef .tc b) := by
  unfold Pipeline.afterTail₀ left
  simp only [List.flatten_cons, List.flatten_nil, List.append_nil]

/-- The batch ids are an argument no line before the call writes: the call leaves them as launched. -/
theorem left_batch (c : Dev nD) :
    (left m c (Proc.devRef .tc main_arg2) : S1000000.Idx → BitVec 32) = m ((c : Thread nD τ).loc main_arg2) := by
  unfold left
  rw [Pipeline.withArrays_of_ne _ c (V0 m c) _ main_arg2 (by exact (by decide : ∀ w, Pipeline.arrRef spec0 w ≠ main_arg2))]
  exact V_main_arg2 m c

/-- The output row is the call's third array. -/
theorem left_out (c : Dev nD) :
    (left m c (Proc.devRef .tc main_v16) : S1x1015808.Idx → EReal) = ((dats m 0 c).arrAt 2 cfg0.N : S1x1015808.Idx → EReal) :=
  Pipeline.withArrays_arr spec0 launch0.win.arr_inj c _ _ 2

/-- The graph energies as a term of the arrays the call finds and the batch ids. -/
def energies (c : Dev nD) : S4096.Idx → EReal :=
  Host.scatterAdd scatter_S4096_S1000000x1_S1000000_n_0_0_1
    (broadcastInDim S4096 ![] bcast_S_S4096 (constant (F := Ideal) S_ .f32 0x00000000#32))
    (broadcastInDim S1000000x1 ![0] bcast_S1000000_S1000000x1_0 (m ((c : Thread nD τ).loc main_arg2)))
    (extractStridedSlice S1000000 ![0]
      (shapeCast S1015808 (OutArray.selected (V m c (Pipeline.arrRef spec0 0)) (V m c (Pipeline.arrRef spec0 1)))
        shapeCasts_S1x1015808_S1015808) slices_S1015808_S1000000_0)

/-- The atom counts. -/
def counts (c : Dev nD) : S4096.Idx → EReal :=
  Host.scatterAdd scatter_S4096_S1000000x1_S1000000_n_0_0_1
    (broadcastInDim S4096 ![] bcast_S_S4096 (constant (F := Ideal) S_ .f32 0x00000000#32))
    (broadcastInDim S1000000x1 ![0] bcast_S1000000_S1000000x1_0 (m ((c : Thread nD τ).loc main_arg2)))
    (broadcastInDim S1000000 ![] bcast_S_S1000000 (constant (F := Ideal) S_ .f32 0x3F800000#32))

/-- The forces. -/
def forces : S1000000x3.Idx → EReal :=
  broadcastInDim S1000000x3 ![] bcast_S_S1000000x3 (constant (F := Ideal) S_ .f32 0x00000000#32)

theorem energies_eq (c : Dev nD) :
    (Pipeline.afterTail₀ cfgs (dats m) 0 (V0 m) [hostOps1] c main_v21 : S4096.Idx → EReal) = energies m c := by
  rw [tail_eq, Tail.energies (left m c), left_batch, left_out, OutArray.final]
  rfl

theorem counts_eq (c : Dev nD) :
    (Pipeline.afterTail₀ cfgs (dats m) 0 (V0 m) [hostOps1] c main_v25 : S4096.Idx → EReal) = counts m c := by
  rw [tail_eq, Tail.counts (left m c), left_batch]
  rfl

theorem forces_eq (c : Dev nD) :
    (Pipeline.afterTail₀ cfgs (dats m) 0 (V0 m) [hostOps1] c main_v26 : S1000000x3.Idx → EReal) = forces := by
  rw [tail_eq, Tail.forces (left m c)]
  rfl

/-- THE KERNEL PROGRAM'S RUN: every weakly fair execution terminates with the three results at `energies`,
    `forces`, `counts` and the arguments unchanged. -/
theorem run : θ_run defs (onTc (τ := τ) (main (F := Ideal))) ⟨m, fun _ => 0, ρ⟩ fun r => ∀ c : Dev nD,
      r.2.mem ((c.tc : Thread nD τ).loc main_v21) = energies m c
      ∧ r.2.mem ((c.tc : Thread nD τ).loc main_v26) = forces
      ∧ r.2.mem ((c.tc : Thread nD τ).loc main_v25) = counts m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v21 (Pipeline.mem_restRefs_of main_v21 (by decide) (by decide))).trans (energies_eq m c),
     ((h c).2 main_v26 (Pipeline.mem_restRefs_of main_v26 (by decide) (by decide))).trans (forces_eq m c),
     ((h c).2 main_v25 (Pipeline.mem_restRefs_of main_v25 (by decide) (by decide))).trans (counts_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c)⟩)
    (run_main m ρ)

end Cert.KernelIdeal.RunValue

end
-- ==== Proof.KernelTable.lean ====
/-
  The two arrays that the program's host lines prepare before its blockwise computation starts, read at an entry.

  The first is the ENERGY TABLE: the small network applied once to each of the 120 rows of the embedding table,
  `E(r) = (∑ₖ silu((∑ₖ' emb[r,k'] · W1[k',k]) + b1[k]) · W2[k,0]) + b2[0]`, laid out as a column of 128 entries whose
  first 120 are `E(0) … E(119)` (the rest stay zero). The host computes it as two matrix products with the bias added
  to every row, the activation `silu` applied entrywise in between, then writes the resulting column of 120 numbers
  as ONE window at position 0 of a zero vector of 128. Read at row `r < 120` this is `E(r)`:
  each matrix product at an entry is the sum over the contracted axis, a bias broadcast reads the bias at the column,
  the activation is entrywise, and the window write leaves entry `r` of the window at position `r`.

  The second is the vector of element ids, lengthened from 1000000 to 1015808 entries by padding at the high end and
  viewed as one row: below 1000000 an entry is the id itself.
-/
import proofs.«408024_j15994458210311_2_alg».proof.Proof.Gen.KernelIdeal.Frame
import proofs.«408024_j15994458210311_2_alg».proof.Proof.Spec
import Idealize.ShloMosaic.Lib.Pipeline.Value
import Idealize.ShloMosaic.Lib.KernelVsHost
import Idealize.ShloMosaic.Lib.ValueIdx
import Idealize.ShloMosaic.PureOps.Ideal.Laws

noncomputable section
open Idealize.ShloMosaic Idealize.ShloMosaic.TcCoe Idealize.SL.Sem Idealize.ShloMosaic.ValueIdx
open Cert.AtomEnergy

namespace Cert.KernelIdeal.Table
open Cert.KernelIdeal Cert.KernelIdeal.Gen
open Idealize.ShloMosaic.StableHlo Idealize.ShloMosaic.Tactic

/-! ## Writing a window into a vector -/

/-- Writing `val n` at position `pos n` for each `n` of a list in turn: a position that no entry names keeps what
    it held. -/
theorem foldl_write_of_forall_ne {ι β α : Type} [DecidableEq β] (pos : ι → β) (val : ι → α) (l : List ι) (x : β → α) (p : β)
    (h : ∀ n ∈ l, pos n ≠ p) :
    (l.foldl (fun r n => fun i' => if i' = pos n then val n else r i') x) p = x p := by
  induction l generalizing x with
  | nil => rfl
  | cons n l ih =>
    rw [List.foldl_cons, ih _ (fun n' hn' => h n' (List.mem_cons_of_mem _ hn'))]
    exact if_neg (fun hp => h n (List.mem_cons.2 (Or.inl rfl)) hp.symm)

/-- When distinct entries name distinct positions, the position an entry of the list names ends holding that
    entry's value: no later entry overwrites it. -/
theorem foldl_write_of_mem {ι β α : Type} [DecidableEq β] (pos : ι → β) (val : ι → α) (hinj : Function.Injective pos)
    (l : List ι) (hl : l.Nodup) (x : β → α) (n0 : ι) (hn : n0 ∈ l) :
    (l.foldl (fun r n => fun i' => if i' = pos n then val n else r i') x) (pos n0) = val n0 := by
  induction l generalizing x with
  | nil => exact absurd hn List.not_mem_nil
  | cons n l ih =>
    rw [List.foldl_cons]
    rw [List.nodup_cons] at hl
    rcases List.mem_cons.1 hn with hn' | hn'
    · subst hn'
      rw [foldl_write_of_forall_ne pos val l _ (pos n0) (fun n' hn' he => hl.1 (hinj he ▸ hn'))]
      exact if_pos rfl
    · exact ih hl.2 _ hn'

/-- The window's start on the operand's one axis is the start index read off the indices: `0`. -/
theorem window_start (idx : IVec S1 32) (hidx : ∀ k, idx k = 0#32) (j : S120.Idx) :
    scatter_S128_S1_S120_0_n_0_0.start j idx 0 = 0 := by
  unfold ScatterDims.start
  split
  · rw [hidx]; rfl
  · rfl

/-- The window coordinate on the operand's one axis is the update's own coordinate. -/
theorem window_coord (j : S120.Idx) : scatter_S128_S1_S120_0_n_0_0.window j 0 = (j 0).val := by
  unfold ScatterDims.window
  rw [dif_pos (show (0 : Fin S128.rank) ∈ scatter_S128_S1_S120_0_n_0_0.sKept by decide)]
  rfl

/-- So entry `j` of the 120-wide window lands at operand position `j`, inside the 128-long operand. -/
theorem window_resultIdx (idx : IVec S1 32) (hidx : ∀ k, idx k = 0#32) (j : S120.Idx) :
    scatter_S128_S1_S120_0_n_0_0.resultIdx? j idx
      = some (ix1 (⟨(j 0).val, by have h : (j 0).val < 120 := (j 0).isLt; omega⟩ : Fin 128)) := by
  have hj : (j 0).val < 120 := (j 0).isLt
  have h : ∀ a, 0 ≤ scatter_S128_S1_S120_0_n_0_0.start j idx a + scatter_S128_S1_S120_0_n_0_0.window j a
      ∧ scatter_S128_S1_S120_0_n_0_0.start j idx a + scatter_S128_S1_S120_0_n_0_0.window j a < S128.size a := fun a => by
    have ha : a = 0 := Fin.ext (by have h1 : a.val < 1 := a.isLt; show a.val = 0; omega)
    subst ha
    rw [window_start idx hidx j, window_coord j]
    show (0 : Int) ≤ 0 + ((j 0).val : Int) ∧ (0 : Int) + ((j 0).val : Int) < ((128 : Nat) : Int)
    omega
  unfold ScatterDims.resultIdx?
  rw [dif_pos h]
  refine congrArg some (funext fun a => Fin.ext ?_)
  have ha : a = 0 := Fin.ext (by have h1 : a.val < 1 := a.isLt; show a.val = 0; omega)
  subst ha
  show (scatter_S128_S1_S120_0_n_0_0.start j idx 0 + scatter_S128_S1_S120_0_n_0_0.window j 0).toNat = (j 0).val
  rw [window_start idx hidx j, window_coord j]; omega

/-- Where entry `n` of the window, counted in row-major order, lands. -/
abbrev landing (n : Fin S120.numel) : S128.Idx :=
  ix1 (⟨((S120.rowMajor.symm n) 0).val, by have h : ((S120.rowMajor.symm n) 0).val < 120 := ((S120.rowMajor.symm n) 0).isLt; omega⟩ : Fin 128)

/-- Distinct entries land at distinct positions. -/
theorem landing_injective : Function.Injective landing := by
  intro n n' he
  have h0 : ((S120.rowMajor.symm n) 0).val = ((S120.rowMajor.symm n') 0).val := congrArg (fun i : S128.Idx => (i 0).val) he
  have h1 : S120.rowMajor.symm n = S120.rowMajor.symm n' := by
    rw [eq_ix1 (S120.rowMajor.symm n), eq_ix1 (S120.rowMajor.symm n')]
    exact congrArg ix1 (Fin.ext h0)
  exact S120.rowMajor.symm.injective h1

/-- THE WINDOW WRITE. A 120-wide update written (each entry replacing what was there) at start `0` into a 128-long
    operand leaves the update's entry `r` at position `r`, for every `r` below 120. -/
theorem scatter_window_apply {α : Type} (x : S128.Idx → α) (idx : IVec S1 32) (hidx : ∀ k, idx k = 0#32) (upd : S120.Idx → α)
    (r : Fin 120) :
    Host.scatter scatter_S128_S1_S120_0_n_0_0 (fun _ b => b) x idx upd (ix1 (⟨r.val, by omega⟩ : Fin 128)) = upd (ix1 r) := by
  unfold Host.scatter
  simp only [window_resultIdx idx hidx]
  have hq : S120.rowMajor.symm (S120.rowMajor (ix1 r)) = ix1 r := Equiv.symm_apply_apply _ _
  have hp : (ix1 (⟨r.val, by omega⟩ : Fin 128) : S128.Idx) = landing (S120.rowMajor (ix1 r)) := by
    refine congrArg ix1 (Fin.ext ?_)
    show r.val = ((S120.rowMajor.symm (S120.rowMajor (ix1 r))) 0).val
    rw [hq]
  rw [hp]
  refine (foldl_write_of_mem landing (fun n => upd (S120.rowMajor.symm n)) landing_injective _ (List.nodup_finRange _) x _
    (List.mem_finRange _)).trans ?_
  show upd (S120.rowMajor.symm (S120.rowMajor (ix1 r))) = upd (ix1 r)
  rw [hq]

/-! ## The two matrix products at an entry

Each is the sum over the one contracted axis (the left operand's columns, the right operand's rows); the four
coordinate facts per product say which entries of the operands term `k` of that sum reads. -/

theorem lhs_hid_0 (i : S120x64.Idx) (q : dot_S120x64_S64x64_S120x64_1_0_0_1_n_n.contr.Idx) :
    (dot_S120x64_S64x64_S120x64_1_0_0_1_n_n.lhsIdx i q 0).val = (i 0).val := by
  unfold DotDims.lhsIdx
  rw [dif_neg (show ¬(0 : Fin S120x64.rank) ∈ dot_S120x64_S64x64_S120x64_1_0_0_1_n_n.lhsBatch by decide), dif_pos (show (0 : Fin S120x64.rank) ∈ dot_S120x64_S64x64_S120x64_1_0_0_1_n_n.lhsNonContracting by decide)]
  rfl
theorem lhs_hid_1 (i : S120x64.Idx) (q : dot_S120x64_S64x64_S120x64_1_0_0_1_n_n.contr.Idx) :
    (dot_S120x64_S64x64_S120x64_1_0_0_1_n_n.lhsIdx i q 1).val = (q ⟨0, by decide⟩).val :=
  dot_S120x64_S64x64_S120x64_1_0_0_1_n_n.lhsIdx_val_of_single rfl i q
theorem rhs_hid_0 (i : S120x64.Idx) (q : dot_S120x64_S64x64_S120x64_1_0_0_1_n_n.contr.Idx) :
    (dot_S120x64_S64x64_S120x64_1_0_0_1_n_n.rhsIdx i q 0).val = (q ⟨0, by decide⟩).val :=
  dot_S120x64_S64x64_S120x64_1_0_0_1_n_n.rhsIdx_val_of_single rfl i q
theorem rhs_hid_1 (i : S120x64.Idx) (q : dot_S120x64_S64x64_S120x64_1_0_0_1_n_n.contr.Idx) :
    (dot_S120x64_S64x64_S120x64_1_0_0_1_n_n.rhsIdx i q 1).val = (i 1).val := by
  unfold DotDims.rhsIdx
  rw [dif_neg (show ¬(1 : Fin S64x64.rank) ∈ dot_S120x64_S64x64_S120x64_1_0_0_1_n_n.rhsBatch by decide), dif_pos (show (1 : Fin S64x64.rank) ∈ dot_S120x64_S64x64_S120x64_1_0_0_1_n_n.rhsNonContracting by decide)]
  rfl

/-- Entry `(r, k)` of the table times the first weights: row `r` of the table against column `k` of the weights. -/
theorem hid_dot_apply (emb : FVec Ideal S120x64 .f32) (W1 : FVec Ideal S64x64 .f32) (r : Fin 120) (k : Fin 64) :
    Host.dotGeneral (F := Ideal) dot_S120x64_S64x64_S120x64_1_0_0_1_n_n none emb W1 (ix2 r k)
      = ∑ k' : Fin 64, emb (ix2 r k') * W1 (ix2 k' k) := by
  simp only [Host.dotGeneral]
  rw [Ideal.dotGeneral_apply, ← Equiv.sum_comp (ValueIdx.contrEquiv1 dot_S120x64_S64x64_S120x64_1_0_0_1_n_n 64 rfl rfl).symm]
  refine Finset.sum_congr rfl fun k' _ => ?_
  have hk := ValueIdx.contrEquiv1_symm_val dot_S120x64_S64x64_S120x64_1_0_0_1_n_n 64 rfl rfl k'
  have el : dot_S120x64_S64x64_S120x64_1_0_0_1_n_n.lhsIdx (ix2 r k) ((ValueIdx.contrEquiv1 dot_S120x64_S64x64_S120x64_1_0_0_1_n_n 64 rfl rfl).symm k') = ix2 r k' := funext fun a => Fin.ext (by
    match a with
    | ⟨0, _⟩ => exact lhs_hid_0 _ _
    | ⟨1, _⟩ => exact (lhs_hid_1 _ _).trans hk)
  have er : dot_S120x64_S64x64_S120x64_1_0_0_1_n_n.rhsIdx (ix2 r k) ((ValueIdx.contrEquiv1 dot_S120x64_S64x64_S120x64_1_0_0_1_n_n 64 rfl rfl).symm k') = ix2 k' k := funext fun a => Fin.ext (by
    match a with
    | ⟨0, _⟩ => exact (rhs_hid_0 _ _).trans hk
    | ⟨1, _⟩ => exact rhs_hid_1 _ _)
  rw [el, er]

theorem lhs_out_0 (i : S120x1.Idx) (q : dot_S120x64_S64x1_S120x1_1_0_0_1_n_n.contr.Idx) :
    (dot_S120x64_S64x1_S120x1_1_0_0_1_n_n.lhsIdx i q 0).val = (i 0).val := by
  unfold DotDims.lhsIdx
  rw [dif_neg (show ¬(0 : Fin S120x64.rank) ∈ dot_S120x64_S64x1_S120x1_1_0_0_1_n_n.lhsBatch by decide), dif_pos (show (0 : Fin S120x64.rank) ∈ dot_S120x64_S64x1_S120x1_1_0_0_1_n_n.lhsNonContracting by decide)]
  rfl
theorem lhs_out_1 (i : S120x1.Idx) (q : dot_S120x64_S64x1_S120x1_1_0_0_1_n_n.contr.Idx) :
    (dot_S120x64_S64x1_S120x1_1_0_0_1_n_n.lhsIdx i q 1).val = (q ⟨0, by decide⟩).val :=
  dot_S120x64_S64x1_S120x1_1_0_0_1_n_n.lhsIdx_val_of_single rfl i q
theorem rhs_out_0 (i : S120x1.Idx) (q : dot_S120x64_S64x1_S120x1_1_0_0_1_n_n.contr.Idx) :
    (dot_S120x64_S64x1_S120x1_1_0_0_1_n_n.rhsIdx i q 0).val = (q ⟨0, by decide⟩).val :=
  dot_S120x64_S64x1_S120x1_1_0_0_1_n_n.rhsIdx_val_of_single rfl i q
theorem rhs_out_1 (i : S120x1.Idx) (q : dot_S120x64_S64x1_S120x1_1_0_0_1_n_n.contr.Idx) :
    (dot_S120x64_S64x1_S120x1_1_0_0_1_n_n.rhsIdx i q 1).val = (i 1).val := by
  unfold DotDims.rhsIdx
  rw [dif_neg (show ¬(1 : Fin S64x1.rank) ∈ dot_S120x64_S64x1_S120x1_1_0_0_1_n_n.rhsBatch by decide), dif_pos (show (1 : Fin S64x1.rank) ∈ dot_S120x64_S64x1_S120x1_1_0_0_1_n_n.rhsNonContracting by decide)]
  rfl

/-- Entry `(r, 0)` of the hidden layer times the second weights: row `r` against the weights' one column. -/
theorem out_dot_apply (h : FVec Ideal S120x64 .f32) (W2 : FVec Ideal S64x1 .f32) (r : Fin 120) :
    Host.dotGeneral (F := Ideal) dot_S120x64_S64x1_S120x1_1_0_0_1_n_n none h W2 (ix2 r (0 : Fin 1))
      = ∑ k : Fin 64, h (ix2 r k) * W2 (ix2 k (0 : Fin 1)) := by
  simp only [Host.dotGeneral]
  rw [Ideal.dotGeneral_apply, ← Equiv.sum_comp (ValueIdx.contrEquiv1 dot_S120x64_S64x1_S120x1_1_0_0_1_n_n 64 rfl rfl).symm]
  refine Finset.sum_congr rfl fun k _ => ?_
  have hk := ValueIdx.contrEquiv1_symm_val dot_S120x64_S64x1_S120x1_1_0_0_1_n_n 64 rfl rfl k
  have el : dot_S120x64_S64x1_S120x1_1_0_0_1_n_n.lhsIdx (ix2 r (0 : Fin 1)) ((ValueIdx.contrEquiv1 dot_S120x64_S64x1_S120x1_1_0_0_1_n_n 64 rfl rfl).symm k) = ix2 r k := funext fun a => Fin.ext (by
    match a with
    | ⟨0, _⟩ => exact lhs_out_0 _ _
    | ⟨1, _⟩ => exact (lhs_out_1 _ _).trans hk)
  have er : dot_S120x64_S64x1_S120x1_1_0_0_1_n_n.rhsIdx (ix2 r (0 : Fin 1)) ((ValueIdx.contrEquiv1 dot_S120x64_S64x1_S120x1_1_0_0_1_n_n 64 rfl rfl).symm k) = ix2 k (0 : Fin 1) := funext fun a => Fin.ext (by
    match a with
    | ⟨0, _⟩ => exact (rhs_out_0 _ _).trans hk
    | ⟨1, _⟩ => exact rhs_out_1 _ _)
  rw [el, er]

/-! ## The network, layer by layer, as the host lines compute it on the whole table -/

/-- The hidden layer before the activation: the table times the first weights, the first bias added to every row. -/
def preAct (emb : FVec Ideal S120x64 .f32) (W1 : FVec Ideal S64x64 .f32) (b1 : FVec Ideal S64 .f32) : FVec Ideal S120x64 .f32 :=
  addf (Host.dotGeneral (F := Ideal) dot_S120x64_S64x64_S120x64_1_0_0_1_n_n none emb W1)
    (broadcastInDim S120x64 ![0, 1] bcast_S1x64_S120x64_0_1 (broadcastInDim S1x64 ![1] bcast_S64_S1x64_1 b1))

/-- At entry `(r, k)`: row `r` of the table against column `k` of the first weights, plus the bias at `k`. -/
theorem preAct_apply (emb : FVec Ideal S120x64 .f32) (W1 : FVec Ideal S64x64 .f32) (b1 : FVec Ideal S64 .f32) (r : Fin 120) (k : Fin 64) :
    preAct emb W1 b1 (ix2 r k) = (∑ k' : Fin 64, emb (ix2 r k') * W1 (ix2 k' k)) + b1 (ix1 k) := by
  unfold preAct
  rw [addf_apply, hid_dot_apply]
  congr 1
  rw [broadcastInDim_apply _ bcast_S1x64_S120x64_0_1 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])]
  exact broadcastInDim_apply _ bcast_S64_S1x64_1 b1 (ix2 (0 : Fin 1) k) (ix1 k) (fun a => match a with
    | ⟨0, _⟩ => by show k.val = if (64 : Nat) = 1 then 0 else k.val; rw [if_neg (by decide)])

/-- The activation on a whole array, line by line: `z · (1 / (1 + exp (−z)))` with the constant `1` spread over
    the array. -/
def act (z : FVec Ideal S120x64 .f32) : FVec Ideal S120x64 .f32 :=
  mulf z (Host.divf (broadcastInDim S120x64 ![] bcast_S_S120x64 (constant (F := Ideal) S_ .f32 0x3F800000#32))
    (addf (broadcastInDim S120x64 ![] bcast_S_S120x64 (constant (F := Ideal) S_ .f32 0x3F800000#32)) (Host.exp (Host.negf z))))

/-- It acts entry by entry, as `silu`. -/
theorem act_apply (z : FVec Ideal S120x64 .f32) (i : S120x64.Idx) : act z i = silu (z i) := rfl

/-- The output column: the hidden layer times the second weights, the second bias added to every row. -/
def outCol (h : FVec Ideal S120x64 .f32) (W2 : FVec Ideal S64x1 .f32) (b2 : FVec Ideal S1 .f32) : FVec Ideal S120x1 .f32 :=
  addf (Host.dotGeneral (F := Ideal) dot_S120x64_S64x1_S120x1_1_0_0_1_n_n none h W2)
    (broadcastInDim S120x1 ![0, 1] bcast_S1x1_S120x1_0_1 (broadcastInDim S1x1 ![1] bcast_S1_S1x1_1 b2))

/-- At row `r`: row `r` of the hidden layer against the second weights' column, plus the one bias. -/
theorem outCol_apply (h : FVec Ideal S120x64 .f32) (W2 : FVec Ideal S64x1 .f32) (b2 : FVec Ideal S1 .f32) (r : Fin 120) :
    outCol h W2 b2 (ix2 r (0 : Fin 1)) = (∑ k : Fin 64, h (ix2 r k) * W2 (ix2 k (0 : Fin 1))) + b2 (ix1 (0 : Fin 1)) := by
  unfold outCol
  rw [addf_apply, out_dot_apply]
  congr 1
  rw [broadcastInDim_apply _ bcast_S1x1_S120x1_0_1 _ (ix2 r (0 : Fin 1)) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else 0; rw [if_pos rfl])]
  exact broadcastInDim_apply _ bcast_S1_S1x1_1 b2 (ix2 (0 : Fin 1) (0 : Fin 1)) (ix1 (0 : Fin 1)) (fun a => match a with
    | ⟨0, _⟩ => by show 0 = if (1 : Nat) = 1 then 0 else 0; rw [if_pos rfl])

/-- The table as the host lines leave it: the output column flattened to 120 numbers, written as one window at position 0 of 128
    zeros, and viewed as a column of 128. -/
def table (emb : FVec Ideal S120x64 .f32) (W1 : FVec Ideal S64x64 .f32) (b1 : FVec Ideal S64 .f32)
    (W2 : FVec Ideal S64x1 .f32) (b2 : FVec Ideal S1 .f32) : FVec Ideal S128x1 .f32 :=
  shapeCast S128x1
    (Host.scatter scatter_S128_S1_S120_0_n_0_0 (fun _ b => b)
      (broadcastInDim S128 ![] bcast_S_S128 (constant (F := Ideal) S_ .f32 0x00000000#32))
      (broadcastInDim S1 ![] bcast_S_S1 (constantI S_ 32 0#32))
      (shapeCast S120 (outCol (act (preAct emb W1 b1)) W2 b2) shapeCasts_S120x1_S120))
    shapeCasts_S128_S128x1

/-- Row `r < 120` of the table is the energy of table row `r`. -/
theorem table_row (emb : FVec Ideal S120x64 .f32) (W1 : FVec Ideal S64x64 .f32) (b1 : FVec Ideal S64 .f32)
    (W2 : FVec Ideal S64x1 .f32) (b2 : FVec Ideal S1 .f32) (r : Fin 120) :
    table emb W1 b1 W2 b2 (ix2 (⟨r.val, by omega⟩ : Fin 128) (0 : Fin 1)) = rowEnergy emb W1 b1 W2 b2 r := by
  unfold table
  rw [shapeCast_apply _ shapeCasts_S128_S128x1 (ix2 (⟨r.val, by omega⟩ : Fin 128) (0 : Fin 1)) (ix1 (⟨r.val, by omega⟩ : Fin 128))
    (by rewrite [Shape.rowMajor_val_one, Shape.rowMajor_val_two]; show r.val = r.val * 1 + 0; omega)]
  rw [scatter_window_apply _ (broadcastInDim S1 ![] bcast_S_S1 (constantI S_ 32 0#32)) (fun _ => rfl) _ r]
  rw [shapeCast_apply _ shapeCasts_S120x1_S120 (ix1 r) (ix2 r (0 : Fin 1))
    (by rewrite [Shape.rowMajor_val_two, Shape.rowMajor_val_one]; show r.val * 1 + 0 = r.val; omega)]
  rw [outCol_apply]
  unfold rowEnergy energyOfRow AtomEnergy.hidden
  congr 1
  refine Finset.sum_congr rfl fun k _ => ?_
  rw [act_apply, preAct_apply]

/-! ## The padded ids -/

/-- The ids as the host lines leave them: lengthened by 15808 entries at the high end (none at the low end, none in between) and
    viewed as one row. -/
def paddedIds (ids : IVec S1000000 32) : IVec S1x1015808 32 :=
  shapeCast S1x1015808
    (pad S1015808 ![0] ![15808] ![0] ids (constantI S_ 32 120#32) pads_S1000000_S1015808_0158080 h_S_)
    shapeCasts_S1015808_S1x1015808

/-- Below 1000000 an entry is the id itself. -/
theorem paddedIds_apply (ids : IVec S1000000 32) (i : Fin 1000000) :
    paddedIds ids (ix2 (0 : Fin 1) (⟨i.val, by omega⟩ : Fin 1015808)) = ids (ix1 i) := by
  unfold paddedIds
  rw [shapeCast_apply _ shapeCasts_S1015808_S1x1015808 (ix2 (0 : Fin 1) (⟨i.val, by omega⟩ : Fin 1015808)) (ix1 (⟨i.val, by omega⟩ : Fin 1015808))
    (by rewrite [Shape.rowMajor_val_one, Shape.rowMajor_val_two]; show i.val = 0 * 1015808 + i.val; omega)]
  exact pad_apply_of_inside _ _ _ ids _ pads_S1000000_S1015808_0158080 h_S_ (ix1 (⟨i.val, by omega⟩ : Fin 1015808)) (ix1 i)
    (fun a => match a with
      | ⟨0, _⟩ => by show i.val = 0 + i.val * (0 + 1); omega)

/-! ## The two arrays as the host lines leave them -/

variable (m : (ℓ : Loc nD τ sig) → Buf (Elt Ideal) ℓ)

set_option maxRecDepth 8192 in
set_option maxHeartbeats 2000000 in
/-- The host lines leave the table in the second of the two arrays. -/
theorem V_table (c : Dev nD) :
    (V (F := Ideal) m c main_v13 : (⟨2, ![128, 1]⟩ : Shape).Idx → EReal)
      = table (m ((c : Thread nD τ).loc main_arg3)) (m ((c : Thread nD τ).loc main_arg4)) (m ((c : Thread nD τ).loc main_arg5))
          (m ((c : Thread nD τ).loc main_arg6)) (m ((c : Thread nD τ).loc main_arg7)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxRecDepth 8192 in
set_option maxHeartbeats 2000000 in
/-- And the padded ids in its first. -/
theorem V_ids (c : Dev nD) :
    (V (F := Ideal) m c main_v15 : (⟨2, ![1, 1015808]⟩ : Shape).Idx → BitVec 32)
      = paddedIds (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  funext i
  rfl

theorem table_apply (c : Dev nD) (r : Fin 120) :
    (V (F := Ideal) m c main_v13 : (⟨2, ![128, 1]⟩ : Shape).Idx → EReal) (ix2 (⟨r.val, by omega⟩ : Fin 128) (0 : Fin 1))
      = rowEnergy (m ((c : Thread nD τ).loc main_arg3)) (m ((c : Thread nD τ).loc main_arg4)) (m ((c : Thread nD τ).loc main_arg5))
          (m ((c : Thread nD τ).loc main_arg6)) (m ((c : Thread nD τ).loc main_arg7)) r := by
  exact (congrFun (V_table m c) _).trans (table_row _ _ _ _ _ r)

theorem ids_apply (c : Dev nD) (i : Fin 1000000) :
    (V (F := Ideal) m c main_v15 : (⟨2, ![1, 1015808]⟩ : Shape).Idx → BitVec 32) (ix2 (0 : Fin 1) (⟨i.val, by omega⟩ : Fin 1015808))
      = (m ((c : Thread nD τ).loc main_arg0) : (⟨1, ![1000000]⟩ : Shape).Idx → BitVec 32) (ix1 i) := by
  exact (congrFun (V_ids m c) _).trans (paddedIds_apply _ i)

end Cert.KernelIdeal.Table
end
-- ==== Proof.RefEnergy.lean ====
/-
  The reference program's energy of one atom, read at that atom's index.

  The reference looks the atom's element id `z` up in the embedding table (a gather of row `z`, after NumPy's wrap of
  negative indices, `z < 0 ↦ z + 120`), multiplies the row by `W1`, adds `b1`, applies `silu`, multiplies by `W2` and
  adds `b2`. For an id that is a row number `r < 120` the wrap does nothing and the gather's clamp of the start index
  into `[0, 119]` does nothing either, so the atom's energy is the network on row `r`: `rowEnergy emb W1 b1 W2 b2 r`.
-/
import proofs.«408024_j15994458210311_2_alg».proof.Proof.Gen.ReferenceIdeal.Read
import proofs.«408024_j15994458210311_2_alg».proof.Proof.Spec
import Idealize.ShloMosaic.Lib.StableHlo.Predicate

noncomputable section
open Idealize.ShloMosaic Idealize.ShloMosaic.TcCoe Idealize.SL.Sem Idealize.ShloMosaic.ValueIdx
open Cert.AtomEnergy

namespace Cert.ReferenceIdeal.Energy
open Cert.ReferenceIdeal Cert.ReferenceIdeal.Gen

/-- The embedding lookup read at `(i, k)`: the gather collapses the table's row axis and keeps its column axis, so
    result element `(i, k)` is the table's entry in column `k` of the row whose number is the start index `idx[i, 0]`,
    read as a signed integer and clamped into `[0, 119]` (the slice is one row, so the last admissible start is `120 − 1`). -/
theorem gather_row_apply {α : Type} (x : S120x64.Idx → α) (idx : IVec S1000000x1 32) (i : Fin 1000000) (k : Fin 64) :
    Host.gather gather_S120x64_S1000000x1_S1000000x64_1_0_n_n_0_1_164 x idx (ix2 i k)
      = x (ix2 (⟨min (idx (ix2 i (0 : Fin 1))).toInt.toNat 119, by omega⟩ : Fin 120) k) := by
  unfold Host.gather
  congr 1
  funext a
  refine Fin.ext ?_
  match a with
  | ⟨0, _⟩ =>
    -- the row axis: named by the start index map, collapsed, not a batching axis
    show gather_S120x64_S1000000x1_S1000000x64_1_0_n_n_0_1_164.start (ix2 i k) idx 0
        + gather_S120x64_S1000000x1_S1000000x64_1_0_n_n_0_1_164.batchCoord (ix2 i k) 0
        + gather_S120x64_S1000000x1_S1000000x64_1_0_n_n_0_1_164.offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S120x64_S1000000x1_S1000000x64_1_0_n_n_0_1_164.startIndexMap from
      List.mem_singleton.mpr rfl)]
    have hsi : gather_S120x64_S1000000x1_S1000000x64_1_0_n_n_0_1_164.siIdx (ix2 i k)
        ⟨List.idxOf (0 : Fin 2) gather_S120x64_S1000000x1_S1000000x64_1_0_n_n_0_1_164.startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis: not named by the start index map, kept, read off the result's offset axis
    show gather_S120x64_S1000000x1_S1000000x64_1_0_n_n_0_1_164.start (ix2 i k) idx 1
        + gather_S120x64_S1000000x1_S1000000x64_1_0_n_n_0_1_164.batchCoord (ix2 i k) 1
        + gather_S120x64_S1000000x1_S1000000x64_1_0_n_n_0_1_164.offCoord (ix2 i k) 1 = k.val
    rw [GatherDims.batchCoord_eq_zero _ _ _ List.not_mem_nil]
    have hs : gather_S120x64_S1000000x1_S1000000x64_1_0_n_n_0_1_164.start (ix2 i k) idx 1 = 0 := by
      unfold GatherDims.start
      rw [dif_neg (show ¬(1 : Fin 2) ∈ gather_S120x64_S1000000x1_S1000000x64_1_0_n_n_0_1_164.startIndexMap by decide)]
    have ho : gather_S120x64_S1000000x1_S1000000x64_1_0_n_n_0_1_164.offCoord (ix2 i k) 1 = k.val := by
      unfold GatherDims.offCoord
      rw [dif_pos (show (1 : Fin 2) ∈ gather_S120x64_S1000000x1_S1000000x64_1_0_n_n_0_1_164.sKept by decide)]
      rfl
    rw [hs, ho, Nat.add_zero, Nat.zero_add]

/-- The same read when the start index `idx[i, 0]` is the word of a row number `r < 120`: read signed it is `r`, and
    clamping `r` into `[0, 119]` leaves it, so the gather reads row `r`. -/
theorem gather_row_of_eq {α : Type} (x : S120x64.Idx → α) (idx : IVec S1000000x1 32) (i : Fin 1000000) (k : Fin 64)
    (r : Fin 120) (h : idx (ix2 i (0 : Fin 1)) = BitVec.ofNat 32 r.val) :
    Host.gather gather_S120x64_S1000000x1_S1000000x64_1_0_n_n_0_1_164 x idx (ix2 i k) = x (ix2 r k) := by
  rw [gather_row_apply]
  have hr : (⟨min (idx (ix2 i (0 : Fin 1))).toInt.toNat 119, by omega⟩ : Fin 120) = r := Fin.ext (by
    show min (idx (ix2 i (0 : Fin 1))).toInt.toNat 119 = r.val
    have hlt : r.val < 120 := r.isLt
    rw [h, StableHlo.Predicate.toInt_ofNat_small r.val (by omega), Int.toNat_natCast]
    omega)
  rw [hr]

/-- A row number `r < 120` is not negative as a signed 32-bit word, so the wrap of negative indices
    (`z < 0 ↦ z + 120`) leaves it alone. -/
theorem wrap_row (z : BitVec 32) (r : Fin 120) (hz : z = BitVec.ofNat 32 r.val) :
    Scalar.select (IntOp.cmpi .slt z 0#32) (IntOp.addi z 120#32) z = z := by
  have h0 : IntOp.cmpi .slt z 0#32 = 0#1 := by
    apply eq_zero_of_ne_one
    intro h
    subst hz
    have hlt : r.val < 120 := r.isLt
    have := (StableHlo.Predicate.slt_ofNat_iff r.val 0 (by omega) (by omega)).mp h
    omega
  rw [h0, select_zero]

variable (x0 : IVec ⟨1, ![1000000]⟩ 32) (x3 : FVec Ideal ⟨2, ![120, 64]⟩ .f32) (x4 : FVec Ideal ⟨2, ![64, 64]⟩ .f32)
  (x5 : FVec Ideal ⟨1, ![64]⟩ .f32) (x6 : FVec Ideal ⟨2, ![64, 1]⟩ .f32) (x7 : FVec Ideal ⟨1, ![1]⟩ .f32)
  (i : Fin 1000000) (r : Fin 120)

/-- The start index the gather reads for atom `i`: the atom's id after the wrap, which is the id itself. -/
theorem start_index (hz : x0 (ix1 i) = BitVec.ofNat 32 r.val) :
    Read.val_main_v5 (F := Ideal) x0 (ix2 i (0 : Fin 1)) = BitVec.ofNat 32 r.val := by
  have hi : Read.idx_main_v5 (ix2 i (0 : Fin 1)) = ix1 i := funext fun a => Fin.ext (by
    match a with
    | ⟨0, _⟩ => rfl)
  rw [Read.val_main_v5_apply, hi, Read.val_main_v4_apply, Read.val_main_v1_apply, Read.val_main_v3_apply,
    Read.val_main_v0_apply, Read.val_main_v2_apply, Read.val_main_c_apply, Read.val_main_c_0_apply,
    wrap_row _ r hz, hz]

/-- The gathered row of atom `i` is row `r` of the embedding table. -/
theorem gathered_row (hz : x0 (ix1 i) = BitVec.ofNat 32 r.val) (k : Fin 64) :
    Read.val_main_v6 (F := Ideal) x0 x3 (ix2 i k) = x3 (ix2 r k) := by
  unfold Read.val_main_v6
  exact gather_row_of_eq x3 _ i k r (start_index x0 i r hz)

/-- The first layer before its activation, at atom `i` and hidden unit `k`: row `r` times column `k` of `W1`, plus
    `b1[k]`. -/
theorem preactivation (hz : x0 (ix1 i) = BitVec.ofNat 32 r.val) (k : Fin 64) :
    Read.val_main_v10 (F := Ideal) x0 x3 x4 x5 (ix2 i k)
      = (∑ k' : Fin 64, x3 (ix2 r k') * x4 (ix2 k' k)) + x5 (ix1 k) := by
  have e8 : Read.idx_main_v8 (Read.idx_main_v9 (ix2 i k)) = ix1 k := funext fun a => Fin.ext (by
    match a with
    | ⟨0, _⟩ => rfl)
  rw [Read.val_main_v10_apply, Read.val_main_v7_apply, Read.val_main_v9_apply, Read.val_main_v8_apply, e8,
    Ideal.addf_def]
  congr 1
  refine Finset.sum_congr rfl fun k' _ => ?_
  have el : Read.lidx_main_v7 (ix2 i k) k' = ix2 i k' := funext fun a => Fin.ext (by
    match a with
    | ⟨0, _⟩ => rfl
    | ⟨1, _⟩ => rfl)
  have er : Read.ridx_main_v7 (ix2 i k) k' = ix2 k' k := funext fun a => Fin.ext (by
    match a with
    | ⟨0, _⟩ => rfl
    | ⟨1, _⟩ => rfl)
  rw [el, er, gathered_row x0 x3 i r hz k']

/-- The first layer after its activation: hidden unit `k` of the network on row `r`. The reference spells `silu` with
    the same operations, in the same order, as the specification does. -/
theorem hidden_unit (hz : x0 (ix1 i) = BitVec.ofNat 32 r.val) (k : Fin 64) :
    Read.val_main_v11 (F := Ideal) x0 x3 x4 x5 (ix2 i k) = hidden (fun k' => x3 (ix2 r k')) x4 x5 k := by
  rw [Read.val_main_v11_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply,
    preactivation x0 x3 x4 x5 i r hz k]
  unfold Cert.AtomEnergy.hidden Cert.AtomEnergy.silu
  rfl

/-- THE REFERENCE AT AN ATOM: for an atom whose element id is the row number `r`, the reference's energy is the
    network applied to row `r` of the embedding table. -/
theorem atom_energy (x0 : IVec ⟨1, ![1000000]⟩ 32) (x3 : FVec Ideal ⟨2, ![120, 64]⟩ .f32) (x4 : FVec Ideal ⟨2, ![64, 64]⟩ .f32)
    (x5 : FVec Ideal ⟨1, ![64]⟩ .f32) (x6 : FVec Ideal ⟨2, ![64, 1]⟩ .f32) (x7 : FVec Ideal ⟨1, ![1]⟩ .f32)
    (i : Fin 1000000) (r : Fin 120) (hz : x0 (ix1 i) = BitVec.ofNat 32 r.val) :
    Cert.ReferenceIdeal.Read.val_main_v16 (F := Ideal) x0 x3 x4 x5 x6 x7 (ix1 i) = rowEnergy x3 x4 x5 x6 x7 r := by
  have e13 : Read.idx_main_v13 (Read.idx_main_v14 (Read.idx_main_v16 (ix1 i))) = ix1 (0 : Fin 1) :=
    funext fun a => Fin.ext (by
      match a with
      | ⟨0, _⟩ => rfl)
  rw [Read.val_main_v16_apply, Read.val_main_v15_apply, Read.val_main_v12_apply, Read.val_main_v14_apply,
    Read.val_main_v13_apply, e13, Ideal.addf_def]
  unfold Cert.AtomEnergy.rowEnergy Cert.AtomEnergy.energyOfRow
  congr 1
  refine Finset.sum_congr rfl fun k _ => ?_
  have el : Read.lidx_main_v12 (Read.idx_main_v16 (ix1 i)) k = ix2 i k := funext fun a => Fin.ext (by
    match a with
    | ⟨0, _⟩ => exact Nat.div_one _
    | ⟨1, _⟩ => rfl)
  have er : Read.ridx_main_v12 (Read.idx_main_v16 (ix1 i)) k = ix2 k (0 : Fin 1) := funext fun a => Fin.ext (by
    match a with
    | ⟨0, _⟩ => rfl
    | ⟨1, _⟩ => rfl)
  rw [el, er, hidden_unit x0 x3 x4 x5 i r hz k]

end Cert.ReferenceIdeal.Energy

end
-- ==== Proof.PreDecode.lean ====
/-
  The index-range conjunct of the precondition, read at one atom.

  The precondition is a conjunction of seven bits: six "every entry of this float input is finite" tests and, last,
  "every id z satisfies 0 ≤ z < 120 as a signed 32-bit integer", itself the conjunction over all 1000000 atoms of
  the two signed comparisons of the id with the words 0 and 120. If the whole conjunction is the bit 1 then so is its
  last conjunct, hence so is the test at every atom, hence both comparisons hold there. A 32-bit word whose signed
  value lies in [0, 120) has its top bit clear, so its signed and unsigned values agree, and the word is the numeral
  of a row number below 120.
-/
import proofs.«408024_j15994458210311_2_alg».proof.Pre_finite_inputs
import Idealize.ShloMosaic.Lib.ReduceAll
import Idealize.ShloMosaic.Lib.StableHlo.Predicate
import Idealize.ShloMosaic.Lib.ValueIdx
import proofs.«408024_j15994458210311_2_alg».proof.Proof.Spec

noncomputable section
open Idealize.ShloMosaic Idealize.ShloMosaic.TcCoe Idealize.SL.Sem Idealize.ShloMosaic.ValueIdx
open Cert.AtomEnergy

namespace Cert.Pre_finite_inputs.Decode
variable [Cert.Pre_finite_inputs.Facts]

/-- A 32-bit word whose signed value lies in [0, 120) is the numeral of a natural number below 120: a non-negative
    signed value means the top bit is clear, and then the signed and the unsigned value are the same number. -/
theorem word_is_row (z : BitVec 32) (h0 : (0 : Int) ≤ z.toInt) (h1 : z.toInt < 120) :
    ∃ r : Fin 120, z = BitVec.ofNat 32 r.val := by
  have hz := BitVec.toInt_eq_toNat_cond z
  have hlt : z.toNat < 2 ^ 32 := z.isLt
  split at hz
  · refine ⟨⟨z.toNat, by omega⟩, ?_⟩
    apply BitVec.eq_of_toNat_eq
    rw [BitVec.toNat_ofNat]
    exact (Nat.mod_eq_of_lt hlt).symm
  · omega

theorem id_is_row (x0 : IVec ⟨1, ![1000000]⟩ 32) (x1 : FVec Ideal ⟨2, ![1000000, 3]⟩ .f32) (x2 : IVec ⟨1, ![1000000]⟩ 32)
    (x3 : FVec Ideal ⟨2, ![120, 64]⟩ .f32) (x4 : FVec Ideal ⟨2, ![64, 64]⟩ .f32) (x5 : FVec Ideal ⟨1, ![64]⟩ .f32)
    (x6 : FVec Ideal ⟨2, ![64, 1]⟩ .f32) (x7 : FVec Ideal ⟨1, ![1]⟩ .f32)
    (h : Cert.Pre_finite_inputs.fn (F := Ideal) x0 x1 x2 x3 x4 x5 x6 x7 = fun _ => 1#1) (i : Fin 1000000) :
    ∃ r : Fin 120, x0 (ix1 i) = BitVec.ofNat 32 r.val := by
  -- the one scalar equation: the outermost conjunction, read at the single rank-0 index, is the bit 1
  have hs := congrFun h ValueIdx.ix0
  unfold fn fn_part1 fn_part2 at hs
  dsimp only at hs
  -- the whole conjunction being 1 forces its last conjunct, the test over all atoms, to be 1
  obtain ⟨-, hall⟩ := IntOp.andi_eq_one.1 hs
  -- the rank-0 shape has a single index, so every atom reduces into it:
  -- a conjunction over all atoms that came out 1 is 1 at every atom
  haveI : Subsingleton S_.Idx := ⟨fun a b => funext fun d => d.elim0⟩
  have hi := Host.reduce_andi_all _ _ _ _ _ hall (ix1 i)
  -- so both comparisons hold at atom i; the scalars 0 and 120, broadcast over the atoms, read as themselves there
  obtain ⟨hge, hlt⟩ := IntOp.andi_eq_one.1 hi
  have hge' : IntOp.cmpi .sge (x0 (ix1 i)) 0#32 = 1#1 := hge
  have hlt' : IntOp.cmpi .slt (x0 (ix1 i)) 120#32 = 1#1 := hlt
  -- the signed comparisons, read back as inequalities between signed values
  have h0 := IntOp.cmpi_sge.1 hge'
  have h1 := IntOp.cmpi_slt.1 hlt'
  rw [show (0#32 : BitVec 32).toInt = 0 from by decide] at h0
  rw [show (120#32 : BitVec 32).toInt = 120 from by decide] at h1
  exact word_is_row _ h0 h1

end Cert.Pre_finite_inputs.Decode

end
-- ==== Proof.Bridge.lean ====
/-
  The two programs compute the same three arrays.

  Energies. Both scatter-add per-atom energies into 4096 graph slots by the same batch ids, so it is enough that
  the per-atom energies agree, atom by atom. Under the precondition an atom's id is a row number `r < 120`. On one
  side the atom's entry is the sum over 128 row numbers of "table[c] if c = id else 0", which is table[r], and the
  table's row `r` is the network on row `r` of the embedding table; on the other side it is the network on the
  gathered row, which is row `r`. Counts: the same scatter-add of ones. Forces: zeros on one side, the negation
  of zeros on the other, and `−0 = 0`.
-/
import proofs.«408024_j15994458210311_2_alg».proof.Proof.KernelRun
import proofs.«408024_j15994458210311_2_alg».proof.Proof.KernelTable
import proofs.«408024_j15994458210311_2_alg».proof.Proof.RefEnergy
import proofs.«408024_j15994458210311_2_alg».proof.Proof.PreDecode
import proofs.«408024_j15994458210311_2_alg».proof.Proof.Gen.ReferenceIdeal.Read
import proofs.«408024_j15994458210311_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.Proof.Bridge

open Idealize.ShloMosaic Idealize.ShloMosaic.TcCoe Idealize.ShloMosaic.ValueIdx
open Idealize.SL Idealize.SL.Sem
open Cert.AtomEnergy
open Cert.KernelIdeal Cert.KernelIdeal.Gen

variable [Cert.Pre_finite_inputs.Facts]
variable (m : (ℓ : Loc nD τ sig) → Buf (Elt Ideal) ℓ)

/-! ## One array under two spellings of its buffer -/

/-- The two staged input arrays' buffers, by name. -/
theorem ids_ref : Pipeline.arrRef spec0 0 = main_v15 := rfl
theorem table_ref : Pipeline.arrRef spec0 1 = main_v13 := rfl

/-- Equal buffers hold the same contents. -/
theorem V_heq (c : Dev nD) {b b' : Ref sig .tc} (h : b = b') : HEq (V m c b) (V m c b') := by subst h; rfl

/-- Contents that are the same up to the spelling of their type, read at an index of the type both spell. -/
theorem apply_of_heq {S : Shape} {α : Type} {T T' : Type} (hT : T = (S.Idx → α)) (hT' : T' = (S.Idx → α))
    (f : T) (g : T') (h : HEq f g) (i : S.Idx) : cast hT f i = cast hT' g i := by
  subst hT
  subst hT'
  rw [eq_of_heq h]

/-- The id row the call stages is the padded id row. -/
theorem ids_at (c : Dev nD) (y : S1x1015808.Idx) :
    (V m c (Pipeline.arrRef spec0 0) : S1x1015808.Idx → BitVec 32) y = (V m c main_v15 : S1x1015808.Idx → BitVec 32) y :=
  apply_of_heq (S := S1x1015808) (α := BitVec 32) rfl rfl _ _ (V_heq m c ids_ref) y

/-- The table column the call stages is the table column. -/
theorem table_at (c : Dev nD) (y : S128x1.Idx) :
    (V m c (Pipeline.arrRef spec0 1) : S128x1.Idx → EReal) y = (V m c main_v13 : S128x1.Idx → EReal) y :=
  apply_of_heq (S := S128x1) (α := EReal) rfl rfl _ _ (V_heq m c table_ref) y

/-! ## The per-atom energies agree -/

/-- Atom `i`'s entry of the kept, flattened output row is the reference's energy of atom `i`. -/
theorem atoms_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    extractStridedSlice S1000000 ![0]
        (shapeCast S1015808 (OutArray.selected (V m c (Pipeline.arrRef spec0 0)) (V m c (Pipeline.arrRef spec0 1)))
          shapeCasts_S1x1015808_S1015808) slices_S1015808_S1000000_0
      = Cert.ReferenceIdeal.Read.val_main_v16 (F := Ideal) (m ((c : Thread nD τ).loc main_arg0)) (m ((c : Thread nD τ).loc main_arg3))
          (m ((c : Thread nD τ).loc main_arg4)) (m ((c : Thread nD τ).loc main_arg5)) (m ((c : Thread nD τ).loc main_arg6))
          (m ((c : Thread nD τ).loc main_arg7)) := by
  funext j
  obtain ⟨i, rfl⟩ : ∃ i : Fin 1000000, j = ix1 i := ⟨j 0, eq_ix1 j⟩
  -- the atom's id is a row number below 120
  obtain ⟨r, hr⟩ := Cert.Pre_finite_inputs.Decode.id_is_row _ _ _ _ _ _ _ _ hpre i
  -- the kept entry i of the flattened row is entry (0, i) of the row
  rw [extractStridedSlice_apply (![0] : Fin 1 → Nat) _ slices_S1015808_S1000000_0 (ix1 i)
        (ix1 (⟨i.val, by omega⟩ : Fin 1015808)) (fun a => by match a with | ⟨0, _⟩ => simp)]
  rw [shapeCast_apply _ shapeCasts_S1x1015808_S1015808 (ix1 (⟨i.val, by omega⟩ : Fin 1015808))
        (ix2 (0 : Fin 1) (⟨i.val, by omega⟩ : Fin 1015808))
        (by rw [Shape.rowMajor_val_one, Shape.rowMajor_val_two]; simp)]
  -- its id is the atom's id, a row number r; the selected sum keeps the table's entry r only
  have hid : (V m c (Pipeline.arrRef spec0 0) : S1x1015808.Idx → BitVec 32) (ix2 (0 : Fin 1) (⟨i.val, by omega⟩ : Fin 1015808))
      = BitVec.ofNat 32 (⟨r.val, by omega⟩ : Fin 128).val :=
    (ids_at m c _).trans ((Cert.KernelIdeal.Table.ids_apply m c i).trans hr)
  unfold OutArray.selected
  refine (lookup_sum (fun c' => (V m c (Pipeline.arrRef spec0 1) : S128x1.Idx → EReal) (ix2 c' (0 : Fin 1))) _
    (⟨r.val, by omega⟩ : Fin 128) hid).trans ?_
  -- the table's entry r is the network on row r, which is what the reference computes for this atom
  exact ((table_at m c _).trans (Cert.KernelIdeal.Table.table_apply m c r)).trans
    (Cert.ReferenceIdeal.Energy.atom_energy _ _ _ _ _ _ i r hr).symm

/-! ## The three results -/

/-- The graph energies are the reference's. -/
theorem energies_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    RunValue.energies m c
      = Cert.ReferenceIdeal.Read.val_main_v19 (F := Ideal) (m ((c : Thread nD τ).loc main_arg0)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  unfold RunValue.energies Cert.ReferenceIdeal.Read.val_main_v19
  rw [atoms_eq m c hpre]
  rfl

/-- The atom counts are the reference's. -/
theorem counts_eq (c : Dev nD) :
    RunValue.counts m c = Cert.ReferenceIdeal.Read.val_main_v26 (F := Ideal) (m ((c : Thread nD τ).loc main_arg2)) := rfl

/-- The forces are the reference's: zeros against the negation of zeros. -/
theorem forces_eq : RunValue.forces = Cert.ReferenceIdeal.Read.val_main_v22 (F := Ideal) := by
  have hz : RunValue.forces = Cert.ReferenceIdeal.Read.val_main_v21 (F := Ideal) := rfl
  funext i
  rw [Cert.ReferenceIdeal.Read.val_main_v22_apply, ← hz]
  have h0 : RunValue.forces i = 0 := by
    rw [hz, Cert.ReferenceIdeal.Read.val_main_v21_apply, Cert.ReferenceIdeal.Read.val_main_cst_2_apply]
    exact Ideal.ofBits_zero_f32
  rw [h0]
  show (0 : EReal) = -(0 : EReal)
  rw [neg_zero]

end Cert.Proof.Bridge

end
-- ==== Proof.lean ====
/-
  Atom energies by table lookup against atom energies by the network, summed per graph.

  Each atom carries an element id `z`, and its energy is a small network (a 64-wide hidden layer with `silu`, then one
  output) applied to row `z` of a 120 × 64 embedding table. One program gathers every atom's row and applies the
  network to each of the 1000000 atoms; the other applies the network once to each of the 120 rows, pads the
  resulting table to 128 entries with zeros, and for every atom selects its entry by comparing the id with all 128
  row numbers and summing the selected column (a sum with one non-zero term). Both then add the atom energies up per
  graph by the same batch ids, count the atoms per graph the same way, and return zero forces (zeros on one side, the
  negation of zeros on the other).

  The two agree exactly where every id is a row number of the table, `0 ≤ z < 120`, which the precondition states:
  an id outside the table makes the gather read a clamped or wrapped row while the comparison selects nothing. No law
  of the extended reals is needed beyond `x + 0 = x` and `−0 = 0`, so finiteness of the float inputs is never opened.

  The word-level program and its idealization print the same operations (the ideal pass rewrote nothing), so that
  conjunct is trivial; the three frames are the generated ones.
-/
import proofs.«408024_j15994458210311_2_alg».proof.Defs
import proofs.«408024_j15994458210311_2_alg».proof.Proof.Gen.Kernel
import proofs.«408024_j15994458210311_2_alg».proof.Proof.Gen.Kernel.Skeleton
import proofs.«408024_j15994458210311_2_alg».proof.Proof.Gen.Kernel.Launch
import proofs.«408024_j15994458210311_2_alg».proof.Proof.Gen.Kernel.Points
import proofs.«408024_j15994458210311_2_alg».proof.Proof.Gen.Kernel.Frame
import proofs.«408024_j15994458210311_2_alg».proof.Proof.Gen.KernelIdeal
import proofs.«408024_j15994458210311_2_alg».proof.Proof.Gen.KernelIdeal.Skeleton
import proofs.«408024_j15994458210311_2_alg».proof.Proof.Gen.KernelIdeal.Launch
import proofs.«408024_j15994458210311_2_alg».proof.Proof.Gen.KernelIdeal.Points
import proofs.«408024_j15994458210311_2_alg».proof.Proof.Gen.KernelIdeal.Frame
import proofs.«408024_j15994458210311_2_alg».proof.Proof.Gen.ReferenceIdeal
import proofs.«408024_j15994458210311_2_alg».proof.Proof.Gen.ReferenceIdeal.Run
import proofs.«408024_j15994458210311_2_alg».proof.Proof.Gen.ReferenceIdeal.Read
import proofs.«408024_j15994458210311_2_alg».proof.Proof.Gen.Pre_finite_inputs
import proofs.«408024_j15994458210311_2_alg».proof.Proof.Bridge
import Idealize.ShloMosaic.Adequacy
import Idealize.ShloMosaic.Init

noncomputable section

namespace Cert.Proof

open Idealize.ShloMosaic Idealize.SL.Sem

/-- Every execution of the word-level kernel program terminates without a fault and leaves its arguments. -/
theorem frame_kernel [Cert.Kernel.Facts] [Cert.Pre_finite_inputs.Facts] : Cert.frame_Kernel :=
  fun m ρ _ => Cert.Kernel.Gen.frame m ρ

/-- The same for its idealization. -/
theorem frame_kernelIdeal [Cert.KernelIdeal.Facts] [Cert.Pre_finite_inputs.Facts] : Cert.frame_KernelIdeal :=
  fun m ρ _ => Cert.KernelIdeal.Gen.frame m ρ

/-- The reference is host lines only: its frame is its run with the three results forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- From memories that agree on the arguments, with every id a row number of the table, both programs end with the
    same graph energies, the same (zero) forces and the same atom counts. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.RunValue.energies m c, fun _ => Cert.KernelIdeal.RunValue.forces,
    fun c => Cert.KernelIdeal.RunValue.counts m c, Cert.KernelIdeal.RunValue.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7⟩ := hagree c
  refine ⟨h0.trans ?_, h1.trans ?_, h2.trans ?_, hargs⟩
  · rw [a0, a2, a3, a4, a5, a6, a7, Cert.ReferenceIdeal.Read.val_main_v19_eq]
    exact (Cert.Proof.Bridge.energies_eq m c (hpre c)).symm
  · rw [Cert.ReferenceIdeal.Read.val_main_v22_eq]
    exact Cert.Proof.Bridge.forces_eq.symm
  · rw [a2, Cert.ReferenceIdeal.Read.val_main_v26_eq]
    exact (Cert.Proof.Bridge.counts_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
